-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x50 : Shape := ⟨2, ![16384, 50]⟩
abbrev S16384x50x128 : Shape := ⟨3, ![16384, 50, 128]⟩
abbrev S_ : Shape := ⟨0, ![]⟩

class Facts : Prop where
  bcast_S_S16384x50x128 : S_.BroadcastsInDim S16384x50x128 (![] : Fin 0 → Fin S16384x50x128.rank)
  reducesTo_S16384x50x128_S_d0_1_2 : S16384x50x128.ReducesTo [0, 1, 2] S_
  h_S_ : 0 < S_.numel

variable [Facts]

def fn {F : FTy → Type} [FloatOps F] (main_arg0 : IVec S16384x50 32) (main_arg1 : IVec S16384x50 32) (main_arg2 : FVec F S16384x50x128 .f32) (main_arg3 : FVec F S16384x50x128 .f32) : IVec S_ 1 :=
  let main_v0 : FVec F S16384x50x128 .f32 := Host.absf main_arg2
  let main_cst : FVec F S_ .f32 := constant S_ .f32 0x7F800000#32
  let main_v1 : FVec F S16384x50x128 .f32 := broadcastInDim S16384x50x128 ![] bcast_S_S16384x50x128 main_cst
  let main_v2 : IVec S16384x50x128 1 := cmpf .olt main_v0 main_v1
  let main_c : IVec S_ 1 := constantI S_ 1 1#1
  let main_v3 : IVec S_ 1 := (fun x v => Host.reduce IntOp.andi x v reducesTo_S16384x50x128_S_d0_1_2 h_S_) main_v2 main_c
  let main_v4 : FVec F S16384x50x128 .f32 := Host.absf main_arg3
  let main_cst_0 : FVec F S_ .f32 := constant S_ .f32 0x7F800000#32
  let main_v5 : FVec F S16384x50x128 .f32 := broadcastInDim S16384x50x128 ![] bcast_S_S16384x50x128 main_cst_0
  let main_v6 : IVec S16384x50x128 1 := cmpf .olt main_v4 main_v5
  let main_c_1 : IVec S_ 1 := constantI S_ 1 1#1
  let main_v7 : IVec S_ 1 := (fun x v => Host.reduce IntOp.andi x v reducesTo_S16384x50x128_S_d0_1_2 h_S_) main_v6 main_c_1
  let main_v8 : IVec S_ 1 := andi main_v3 main_v7
  main_v8
-- ==== Kernel.lean ====
abbrev S16384x50 : Shape := ⟨2, ![16384, 50]⟩
abbrev S16384x50x128 : Shape := ⟨3, ![16384, 50, 128]⟩
abbrev S16384x1 : Shape := ⟨2, ![16384, 1]⟩
abbrev S128x50 : Shape := ⟨2, ![128, 50]⟩
abbrev S128x50x128 : Shape := ⟨3, ![128, 50, 128]⟩
abbrev S128x1 : Shape := ⟨2, ![128, 1]⟩
abbrev S128x50x1 : Shape := ⟨3, ![128, 50, 1]⟩
abbrev S128x128 : Shape := ⟨2, ![128, 128]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S16384x50, .i32⟩
  | .hbm, ⟨1, _⟩ => ⟨S16384x50, .i32⟩
  | .hbm, ⟨2, _⟩ => ⟨S16384x50x128, .f32⟩
  | .hbm, ⟨3, _⟩ => ⟨S16384x50x128, .f32⟩
  | .hbm, ⟨4, _⟩ => ⟨S16384x1, .f32⟩
  | .local _ .vmem, ⟨0, _⟩ => ⟨S128x50, .i32⟩
  | .local _ .vmem, ⟨1, _⟩ => ⟨S128x50, .i32⟩
  | .local _ .vmem, ⟨2, _⟩ => ⟨S128x50, .i32⟩
  | .local _ .vmem, ⟨3, _⟩ => ⟨S128x50, .i32⟩
  | .local _ .vmem, ⟨4, _⟩ => ⟨S128x50x128, .f32⟩
  | .local _ .vmem, ⟨5, _⟩ => ⟨S128x50x128, .f32⟩
  | .local _ .vmem, ⟨6, _⟩ => ⟨S128x50x128, .f32⟩
  | .local _ .vmem, ⟨7, _⟩ => ⟨S128x50x128, .f32⟩
  | .local _ .vmem, ⟨8, _⟩ => ⟨S128x1, .f32⟩
  | .local _ .vmem, ⟨9, _⟩ => ⟨S128x1, .f32⟩
  | _, _ => ⟨S16384x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x50 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x50x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x50x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x50_S128x50_0_0 : ∀ a, (![0, 0] : Fin 2 → Nat) a + S128x50.size a ≤ S128x50.size a
  h_S128x50 : 0 < S128x50.numel
  inb_S128x50x128_S128x50x128_0_0_0 : ∀ a, (![0, 0, 0] : Fin 3 → Nat) a + S128x50x128.size a ≤ S128x50x128.size a
  h_S128x50x128 : 0 < S128x50x128.numel
  shapeCasts_S128x50_S128x50x1 : S128x50.ShapeCasts S128x50x1
  broadcasts_S128x50x1_S128x50x128 : S128x50x1.Broadcasts S128x50x128
  reduces_S128x50x128_S128x128 : S128x50x128.Reduces [1] S128x128
  reduces_S128x128_S128 : S128x128.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x50.size a ≤ S16384x50.size a
  hwx0_0 : ∀ i : grid0.Coords, EltTy.bits .i32 = 32 ∨ (Rect.block (s := S16384x50) S128x50.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x50.size a ≤ S16384x50.size a
  hwx0_1 : ∀ i : grid0.Coords, EltTy.bits .i32 = 32 ∨ (Rect.block (s := S16384x50) S128x50.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x50x128.size a ≤ S16384x50x128.size a
  hwx0_2 : ∀ i : grid0.Coords, EltTy.bits .f32 = 32 ∨ (Rect.block (s := S16384x50x128) S128x50x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x50x128.size a ≤ S16384x50x128.size a
  hwx0_3 : ∀ i : grid0.Coords, EltTy.bits .f32 = 32 ∨ (Rect.block (s := S16384x50x128) S128x50x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S16384x1.size a
  hwx0_4 : ∀ i : grid0.Coords, EltTy.bits .f32 = 32 ∨ (Rect.block (s := S16384x1) S128x1.size (cc0_transform_4 i) (hinb0_4 i)).WholeWords (EltTy.packing .f32)

variable [Facts₀]

abbrev win0_0 : Pipeline.Window sig grid0 :=
  Pipeline.Window.ofSpec (Memref.whole main_arg0) S128x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x50x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x50x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x50 : Shape := ⟨2, ![16384, 50]⟩
abbrev S16384x50x128 : Shape := ⟨3, ![16384, 50, 128]⟩
abbrev S_ : Shape := ⟨0, ![]⟩
abbrev S16384x50x50 : Shape := ⟨3, ![16384, 50, 50]⟩
abbrev S16384x50x1 : Shape := ⟨3, ![16384, 50, 1]⟩
abbrev S16384x1x50 : Shape := ⟨3, ![16384, 1, 50]⟩
abbrev S16384 : Shape := ⟨1, ![16384]⟩
abbrev S16384x1 : Shape := ⟨2, ![16384, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S16384x50, .i32⟩
  | .hbm, ⟨2, _⟩ => ⟨S16384x50x128, .f32⟩
  | .hbm, ⟨3, _⟩ => ⟨S16384x50x128, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384x50, .i32⟩
  | .hbm, ⟨8, _⟩ => ⟨S16384x50, .i32⟩
  | .hbm, ⟨9, _⟩ => ⟨S_, .i32⟩
  | .hbm, ⟨10, _⟩ => ⟨S16384x50, .i32⟩
  | .hbm, ⟨11, _⟩ => ⟨S16384x50, .i32⟩
  | .hbm, ⟨12, _⟩ => ⟨S16384x50, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S16384x50, .i32⟩
  | .hbm, ⟨17, _⟩ => ⟨S16384x50, .i32⟩
  | .hbm, ⟨18, _⟩ => ⟨S_, .i32⟩
  | .hbm, ⟨19, _⟩ => ⟨S16384x50, .i32⟩
  | .hbm, ⟨20, _⟩ => ⟨S16384x50, .i32⟩
  | .hbm, ⟨21, _⟩ => ⟨S16384x50, .f32⟩
  | .hbm, ⟨22, _⟩ => ⟨S16384x50x50, .f32⟩
  | .hbm, ⟨23, _⟩ => ⟨S16384x50x1, .f32⟩
  | .hbm, ⟨24, _⟩ => ⟨S16384x50x50, .f32⟩
  | .hbm, ⟨25, _⟩ => ⟨S16384x50x50, .f32⟩
  | .hbm, ⟨26, _⟩ => ⟨S16384x1x50, .f32⟩
  | .hbm, ⟨27, _⟩ => ⟨S16384x50x50, .f32⟩
  | .hbm, ⟨28, _⟩ => ⟨S16384x50x50, .f32⟩
  | .hbm, ⟨29, _⟩ => ⟨S_, .f32⟩
  | .hbm, ⟨30, _⟩ => ⟨S16384, .f32⟩
  | .hbm, ⟨31, _⟩ => ⟨S16384x1, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_c_1 : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S16384x50x1_S16384x50x50_0_1_2 : S16384x50x1.BroadcastsInDim S16384x50x50 (![0, 1, 2] : Fin 3 → Fin S16384x50x50.rank)
  bcast_S16384x50_S16384x1x50_0_2 : S16384x50.BroadcastsInDim S16384x1x50 (![0, 2] : Fin 2 → Fin S16384x1x50.rank)
  bcast_S16384x1x50_S16384x50x50_0_1_2 : S16384x1x50.BroadcastsInDim S16384x50x50 (![0, 1, 2] : Fin 3 → Fin S16384x50x50.rank)
  reducesTo_S16384x50x50_S16384_d1_2 : S16384x50x50.ReducesTo [1, 2] S16384
  h_S_ : 0 < S_.numel
  bcast_S16384_S16384x1_0 : S16384.BroadcastsInDim S16384x1 (![0] : Fin 1 → Fin S16384x1.rank)
  dot_S16384x50x128_S16384x50x128_S16384x50x50_2_2_1_1_0_0_wf : DotDims.WF S16384x50x128 S16384x50x128 S16384x50x50 [2] [2] [1] [1] [0] [0]

variable [Facts₀]

def dot_S16384x50x128_S16384x50x128_S16384x50x50_2_2_1_1_0_0 : DotDims S16384x50x128 S16384x50x128 S16384x50x50 where
  lhsContracting := [2]
  rhsContracting := [2]
  lhsNonContracting := [1]
  rhsNonContracting := [1]
  lhsBatch := [0]
  rhsBatch := [0]
  wf := dot_S16384x50x128_S16384x50x128_S16384x50x50_2_2_1_1_0_0_wf

class Facts : Prop extends Facts₀ where

variable [Facts]
-- ==== Proof.LibPairSum.lean ====
/-
  General lemmas on finite sums over the extended reals.

  * `coe_sum`: the inclusion of the reals into the extended reals commutes with a finite sum.
  * `pair_sum_real`, `pair_sum_ereal`: for weights `r n`, `c m` and families `a n d`, `b m d`,
        ∑_d (∑_n r n · a n d) · (∑_m c m · b m d)  =  ∑_n ∑_m (∑_d a n d · b m d) · r n · c m :
    a product of two weighted sums is the doubly weighted sum of the pairwise products, and the sum
    over `d` moves inside. Over the reals this is distributivity and an exchange of finite sums; over the
    extended reals it holds when every entry is a real number (at an infinity distributivity fails).
  * `hostReduceAdd_last_two`: the host's sum of a rank-3 array over its last two axes, at the ideal values
    and at index `j`, is the initial value plus the double sum over those two axes' coordinates.
-/
import Idealize.ShloMosaic.PureOps.Ideal.Laws
import Idealize.ShloMosaic.Lib.ValueIdx

open Idealize.ShloMosaic

namespace Cert.PairSum

/-- The inclusion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the sum over `d` of the product of two weighted sums is the doubly weighted sum of the
    inner products over `d`. -/
theorem pair_sum_real {N M D : Type*} [Fintype N] [Fintype M] [Fintype D]
    (r : N → ℝ) (c : M → ℝ) (a : N → D → ℝ) (b : M → D → ℝ) :
    ∑ d, (∑ n, r n * a n d) * (∑ m, c m * b m d) = ∑ n, ∑ m, (∑ d, a n d * b m d) * r n * c m := by
  have hl : ∀ d, (∑ n, r n * a n d) * (∑ m, c m * b m d) = ∑ n, ∑ m, a n d * b m d * r n * c m := fun d => by
    rw [Finset.sum_mul_sum]
    exact Finset.sum_congr rfl fun n _ => Finset.sum_congr rfl fun m _ => by ring
  have hr : ∀ n m, (∑ d, a n d * b m d) * r n * c m = ∑ d, a n d * b m d * r n * c m := fun n m => by
    rw [Finset.sum_mul, Finset.sum_mul]
  simp only [hl, hr]
  rw [Finset.sum_comm]
  exact Finset.sum_congr rfl fun n _ => Finset.sum_comm

/-- The same over the extended reals, for entries that are all real numbers. -/
theorem pair_sum_ereal {N M D : Type*} [Fintype N] [Fintype M] [Fintype D]
    (R : N → EReal) (C : M → EReal) (A : N → D → EReal) (B : M → D → EReal)
    (hR : ∀ n, ∃ x : ℝ, R n = x) (hC : ∀ m, ∃ x : ℝ, C m = x)
    (hA : ∀ n d, ∃ x : ℝ, A n d = x) (hB : ∀ m d, ∃ x : ℝ, B m d = x) :
    ∑ d, (∑ n, R n * A n d) * (∑ m, C m * B m d) = ∑ n, ∑ m, (∑ d, A n d * B m d) * R n * C m := by
  choose r hr using hR
  choose c hc using hC
  choose a ha using hA
  choose b hb using hB
  simp only [hr, hc, ha, hb, ← EReal.coe_mul, ← coe_sum]
  exact congrArg _ (pair_sum_real r c a b)

/-- The host's float sum of a rank-3 array over its last two axes, read at the ideal values: at index `j` the
    initial value plus the double sum over the two reduced coordinates. -/
theorem hostReduceAdd_last_two {B N M : Nat}
    (h : (⟨3, ![B, N, M]⟩ : Shape).ReducesTo [1, 2] ⟨1, ![B]⟩)
    (x : (⟨3, ![B, N, M]⟩ : Shape).Idx → EReal) (init : EReal) (j : (⟨1, ![B]⟩ : Shape).Idx) :
    Ideal.hostReduceAdd h x init j = init + ∑ n : Fin N, ∑ m : Fin M, x (ValueIdx.ix3 (j 0) n m) := by
  unfold Ideal.hostReduceAdd
  refine congrArg (init + ·) ?_
  rw [← Fintype.sum_prod_type']
  refine Finset.sum_nbij' (fun i => (i 1, i 2)) (fun p => ValueIdx.ix3 (j 0) p.1 p.2) ?_ ?_ ?_ ?_ ?_
  · intro i _; exact Finset.mem_univ _
  · intro p _
    rw [Finset.mem_filter]
    refine ⟨Finset.mem_univ _, ?_⟩
    funext b
    match b with
    | ⟨0, _⟩ => exact Fin.ext rfl
  · intro i hi
    rw [Finset.mem_filter] at hi
    have h0 : (i 0).val = (j 0).val := congrArg Fin.val (congrFun hi.2 0)
    funext a
    match a with
    | ⟨0, _⟩ => exact Fin.ext h0.symm
    | ⟨1, _⟩ => rfl
    | ⟨2, _⟩ => rfl
  · intro p _; rfl
  · intro i hi
    rw [Finset.mem_filter] at hi
    have h0 : (i 0).val = (j 0).val := congrArg Fin.val (congrFun hi.2 0)
    refine congrArg x ?_
    funext a
    match a with
    | ⟨0, _⟩ => exact Fin.ext h0
    | ⟨1, _⟩ => rfl
    | ⟨2, _⟩ => rfl

end Cert.PairSum
-- ==== Proof.Spec.lean ====
/-
  The specification both programs meet, index by index.

  For a batch row, with integer words `r n`, `c m` (n, m < 50) and extended reals `a n d`, `b m d` (d < 128), write
  `w x` for the word `x` clipped to {0, 1} and read as a number. The kernel's value of the row is
      ∑_d (∑_n w (r n) · a n d) · (∑_m w (c m) · b m d)                                   (`rowSum`)
  and the reference's is the masked sum of the pairwise inner products
      ∑_n ∑_m (∑_d a n d · b m d) · w (r n) · w (c m)                                      (`pairSum`).
  When every `a n d` and `b m d` is a real number the two agree (`rowSum_eq_pairSum`): the weights are real numbers
  too, so this is distributivity and an exchange of finite sums.
  `G` is the whole result array [16384, 1]: entry (i, 0) is `rowSum` of row `i` of the four argument arrays.
-/
import proofs.«113789_j77833397338356_1_alg».proof.Proof.LibPairSum

noncomputable section

open Idealize.ShloMosaic Idealize.ShloMosaic.ValueIdx

namespace Cert.Spec

/-- A 32-bit word clipped to the range [0, 1] as a signed integer, then read as a number. -/
def weight (x : BitVec 32) : EReal :=
  FloatOps.sitofp (F := Ideal) .f32 (IntOp.minsi 1#32 (IntOp.maxsi 0#32 x))

/-- A weight is a real number. -/
theorem weight_real (x : BitVec 32) : ∃ y : ℝ, weight x = y := ⟨_, rfl⟩

/-- One row as the kernel computes it: the two masked sums over the sequence axis, multiplied lane by lane and summed
    over the 128 lanes. -/
def rowSum (r c : Fin 50 → BitVec 32) (a b : Fin 50 → Fin 128 → EReal) : EReal :=
  ∑ d : Fin 128, (∑ n : Fin 50, weight (r n) * a n d) * (∑ m : Fin 50, weight (c m) * b m d)

/-- One row as the reference computes it: every pair's inner product over the lanes, masked by both weights, summed
    over all pairs. -/
def pairSum (r c : Fin 50 → BitVec 32) (a b : Fin 50 → Fin 128 → EReal) : EReal :=
  ∑ n : Fin 50, ∑ m : Fin 50, (∑ d : Fin 128, a n d * b m d) * weight (r n) * weight (c m)

/-- On real entries the two coincide. -/
theorem rowSum_eq_pairSum (r c : Fin 50 → BitVec 32) (a b : Fin 50 → Fin 128 → EReal)
    (ha : ∀ n d, ∃ x : ℝ, a n d = x) (hb : ∀ m d, ∃ x : ℝ, b m d = x) :
    rowSum r c a b = pairSum r c a b :=
  Cert.PairSum.pair_sum_ereal (fun n => weight (r n)) (fun m => weight (c m)) a b
    (fun n => weight_real _) (fun m => weight_real _) ha hb

/-- The result array: entry (i, 0) is the row sum of row `i` of the arguments. -/
def G (x0 x1 : (⟨2, ![16384, 50]⟩ : Shape).Idx → BitVec 32) (x2 x3 : (⟨3, ![16384, 50, 128]⟩ : Shape).Idx → EReal) :
    (⟨2, ![16384, 1]⟩ : Shape).Idx → EReal := fun i =>
  rowSum (fun n => x0 (ix2 (i 0) n)) (fun m => x1 (ix2 (i 0) m)) (fun n d => x2 (ix3 (i 0) n d)) (fun m d => x3 (ix3 (i 0) m d))

end Cert.Spec

end
-- ==== Proof.KernelRow.lean ====
/-
  One block of the kernel's result, index by index.

  At a grid point the body loads the blocks `r, c : [128, 50]` (integer words) and `a, b : [128, 50, 128]`, clips the words
  to {0, 1} and reads them as numbers, spreads them along the lanes, multiplies with `a` (with `b`), sums over the
  sequence axis, multiplies the two [128, 128] results lane by lane, sums over the lanes and stores the column [128, 1].
  At the ideal values a sum over one axis is the finite sum over that axis's coordinates, and the spread-and-reshape of a
  [128, 50] array read at (p, n, d) is the array at (p, n); so entry (p, 0) of the stored column is the row sum of row `p`
  of the four blocks.
-/
import proofs.«113789_j77833397338356_1_alg».proof.Proof.Gen.KernelIdeal.Value
import proofs.«113789_j77833397338356_1_alg».proof.Proof.Spec
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Cert.KernelIdeal.Value Idealize.ShloMosaic Idealize.ShloMosaic.TcCoe Idealize.SL.Sem
open Idealize.ShloMosaic.ValueIdx Cert.Spec

/-- A [128, 50] array given a unit lane axis and spread along 128 lanes, read at (p, n, d), is the array at (p, n). -/
theorem spread_apply (x : S128x50.Idx → EReal) (p : Fin 128) (n : Fin 50) (d : Fin 128) :
    broadcastTo S128x50x128 (shapeCast S128x50x1 x shapeCasts_S128x50_S128x50x1) broadcasts_S128x50x1_S128x50x128 (ix3 p n d)
      = x (ix2 p n) := by
  refine (broadcastTo_apply _ _ (ix3 p n d) (ix3 p n (0 : Fin 1)) (fun a => ?_)).trans ?_
  · match a with
    | ⟨0, _⟩ => show p.val = if (128 : Nat) = 1 then 0 else p.val; rw [if_neg (by decide)]
    | ⟨1, _⟩ => show n.val = if (50 : Nat) = 1 then 0 else n.val; rw [if_neg (by decide)]
    | ⟨2, _⟩ => show 0 = if (1 : Nat) = 1 then 0 else d.val; rw [if_pos rfl]
  · refine shapeCast_apply _ _ (ix3 p n (0 : Fin 1)) (ix2 p n) ?_
    rw [Shape.rowMajor_val_two, Shape.rowMajor_val_three]
    show p.val * 50 + n.val = (p.val * 50 + n.val) * 1 + 0
    omega

/-- The index over (p, d) with sequence coordinate `n` inserted is (p, n, d). -/
theorem lift_seq (p : Fin 128) (d : Fin 128) (n : Fin 50) :
    reduces_S128x50x128_S128x128.lift (ix2 p d) n = ix3 p n d := by
  funext a
  match a with
  | ⟨0, _⟩ => exact Fin.ext rfl
  | ⟨1, _⟩ => exact Fin.ext rfl
  | ⟨2, _⟩ => exact Fin.ext rfl

/-- The index over row `p` with lane coordinate `d` inserted is (p, d). -/
theorem lift_lane (p : Fin 128) (d : Fin 128) :
    reduces_S128x128_S128.lift (ix1 p) d = ix2 p d := by
  funext a
  match a with
  | ⟨0, _⟩ => exact Fin.ext rfl
  | ⟨1, _⟩ => exact Fin.ext rfl

/-- A block of words clipped to {0, 1}, read as numbers and spread along the lanes. -/
def spreadW (r : Vec Ideal S128x50 .i32) : S128x50x128.Idx → EReal :=
  broadcastTo S128x50x128 (shapeCast S128x50x1 (sitofp (F := Ideal) .f32 (minsi (broadcast S128x50 1#32) (maxsi (broadcast S128x50 0#32) r))) shapeCasts_S128x50_S128x50x1) broadcasts_S128x50x1_S128x50x128

theorem spreadW_apply (r : Vec Ideal S128x50 .i32) (p : Fin 128) (n : Fin 50) (d : Fin 128) :
    spreadW r (ix3 p n d) = weight (r (ix2 p n)) :=
  spread_apply _ p n d

/-- The weighted sum over the sequence axis, at (p, d). -/
theorem seq_sum_apply (r : Vec Ideal S128x50 .i32) (a : S128x50x128.Idx → EReal) (p : Fin 128) (d : Fin 128) :
    Ideal.reduceAdd reduces_S128x50x128_S128x128 (fun k => spreadW r k * a k) (ix2 p d)
      = ∑ n : Fin 50, weight (r (ix2 p n)) * a (ix3 p n d) := by
  refine (Ideal.reduceAdd_single reduces_S128x50x128_S128x128 _ (ix2 p d)).trans ?_
  show ∑ n : Fin 50, spreadW r (reduces_S128x50x128_S128x128.lift (ix2 p d) n) * a (reduces_S128x50x128_S128x128.lift (ix2 p d) n) = _
  refine Finset.sum_congr rfl fun n _ => ?_
  rw [lift_seq p d n, spreadW_apply]

/-- At the ideal values the body's stored column is a sum over the lanes of a product of two sums over the sequence
    axis: the printed operations unfold to these sums. -/
theorem E4_unfold (r : Vec Ideal S128x50 .i32) (a : Vec Ideal S128x50x128 .f32) (c : Vec Ideal S128x50 .i32)
    (b : Vec Ideal S128x50x128 .f32) (y : S128x1.Idx) :
    E4 (F := Ideal) r a c b y
      = Ideal.reduceAdd reduces_S128x128_S128 (fun i =>
          Ideal.reduceAdd reduces_S128x50x128_S128x128 (fun k => spreadW r k * a k) i
            * Ideal.reduceAdd reduces_S128x50x128_S128x128 (fun k => spreadW c k * b k) i) (ix4_0 y) := rfl

/-- THE BLOCK: entry (p, 0) of what the body stores is the row sum of row `p` of the four loaded blocks. -/
theorem E4_eq_rowSum (r : Vec Ideal S128x50 .i32) (a : Vec Ideal S128x50x128 .f32) (c : Vec Ideal S128x50 .i32)
    (b : Vec Ideal S128x50x128 .f32) (p : Fin 128) (q : Fin 1) :
    E4 (F := Ideal) r a c b (ix2 p q)
      = rowSum (fun n => r (ix2 p n)) (fun m => c (ix2 p m)) (fun n d => a (ix3 p n d)) (fun m d => b (ix3 p m d)) := by
  have hy : ix4_0 (ix2 p q) = ix1 p := by
    funext k
    match k with
    | ⟨0, _⟩ => rfl
  rw [E4_unfold, hy]
  refine (Ideal.reduceAdd_single reduces_S128x128_S128 _ (ix1 p)).trans ?_
  unfold rowSum
  show ∑ d : Fin 128, _ = _
  refine Finset.sum_congr rfl fun d _ => ?_
  show Ideal.reduceAdd reduces_S128x50x128_S128x128 (fun k => spreadW r k * a k) (reduces_S128x128_S128.lift (ix1 p) d)
      * Ideal.reduceAdd reduces_S128x50x128_S128x128 (fun k => spreadW c k * b k) (reduces_S128x128_S128.lift (ix1 p) d) = _
  rw [lift_lane p d, seq_sum_apply, seq_sum_apply]

end Cert.KernelIdeal.Row

end
-- ==== Proof.KernelArray.lean ====
/-
  The kernel's result array.

  The grid has 128 points; at point `t` every window's block is the `t`-th run of 128 batch rows of its array (block
  index (t, 0) or (t, 0, 0)), so entry (p, ·) of a block is entry (128·t + p, ·) of the array. The body leaves in the
  output block the row sums of the input blocks' rows (the block lemma), which are therefore the row sums of rows
  128·t + p of the arrays: block `t` of `G`. Row `i` lies in the block of point `i / 128`, so the blocks cover the result
  array and it ends as `G` of the arguments.
-/
import proofs.«113789_j77833397338356_1_alg».proof.Proof.KernelRow

noncomputable section

namespace Cert.KernelIdeal.Array

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Spec Cert.KernelIdeal.Row

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, over blocks given as plain arrays: row sums of their rows. -/
theorem out_eq_rowSum (x0 x1 : Vec Ideal S128x50 .i32) (x2 x3 : Vec Ideal S128x50x128 .f32) (p : Fin 128) (q : Fin 1) :
    out0_4 x0 x1 x2 x3 (ix2 p q)
      = rowSum (fun n => x0 (ix2 p n)) (fun k => x1 (ix2 p k)) (fun n d => x2 (ix3 p n d)) (fun k d => x3 (ix3 p k d)) := by
  unfold out0_4
  simp only [View.ld_unit_zero (S := S128x50) hz2, View.ld_unit_zero (S := S128x50x128) hz3]
  exact (canon4_eq x0 x2 x1 x3 (ix2 p q)).trans (E4_eq_rowSum x0 x2 x1 x3 p q)

/-- The four argument arrays as the region finds them, and their blocks at a point, at their literal types. -/
abbrev arrR (c : Dev nD) : S16384x50.Idx → BitVec 32 := V m c main_arg0
abbrev arrC (c : Dev nD) : S16384x50.Idx → BitVec 32 := V m c main_arg1
abbrev arrA (c : Dev nD) : S16384x50x128.Idx → EReal := V m c main_arg2
abbrev arrB (c : Dev nD) : S16384x50x128.Idx → EReal := V m c main_arg3
abbrev blkR (c : Dev nD) (t : Fin cfg0.N) : Vec Ideal S128x50 .i32 := iblk m c 0 t
abbrev blkC (c : Dev nD) (t : Fin cfg0.N) : Vec Ideal S128x50 .i32 := iblk m c 1 t
abbrev blkA (c : Dev nD) (t : Fin cfg0.N) : Vec Ideal S128x50x128 .f32 := iblk m c 2 t
abbrev blkB (c : Dev nD) (t : Fin cfg0.N) : Vec Ideal S128x50x128 .f32 := iblk m c 3 t

/-- The printed index maps, decided over the 128 points: each window's block index is (t, 0) or (t, 0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

theorem point_lt (t : Fin cfg0.N) : t.val < 128 := lt_of_lt_of_eq t.isLt N_0

/-- Batch row `p` of the block of point `t` is row 128·t + p of the array. -/
def row (t : Fin cfg0.N) (p : Fin 128) : Fin 16384 := ⟨t.val * 128 + p.val, by have := point_lt t; have := p.isLt; omega⟩

theorem blkR_apply (c : Dev nD) (t : Fin cfg0.N) (p : Fin 128) (n : Fin 50) :
    blkR m c t (ix2 p n) = arrR m c (ix2 (row t p) n) := by
  obtain ⟨e0, e1, -⟩ := idx_facts t
  show V m c main_arg0 (((cfg0.win 0).blk t).view.emb (ix2 p n)) = V m c main_arg0 (ix2 (row t p) n)
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 50 + 1 * n.val = n.val; omega

theorem blkC_apply (c : Dev nD) (t : Fin cfg0.N) (p : Fin 128) (n : Fin 50) :
    blkC m c t (ix2 p n) = arrC m c (ix2 (row t p) n) := by
  obtain ⟨-, -, e0, e1, -⟩ := idx_facts t
  show V m c main_arg1 (((cfg0.win 1).blk t).view.emb (ix2 p n)) = V m c main_arg1 (ix2 (row t p) n)
  refine congrArg _ (funext fun a => Fin.ext ?_)
  match a with
  | ⟨0, _⟩ => show win0_1.index t (0 : Fin 2) * 128 + 1 * p.val = t.val * 128 + p.val; omega
  | ⟨1, _⟩ => show win0_1.index t (1 : Fin 2) * 50 + 1 * n.val = n.val; omega

theorem blkA_apply (c : Dev nD) (t : Fin cfg0.N) (p : Fin 128) (n : Fin 50) (d : Fin 128) :
    blkA m c t (ix3 p n d) = arrA m c (ix3 (row t p) n d) := by
  obtain ⟨-, -, -, -, e0, e1, e2, -⟩ := idx_facts t
  show V m c main_arg2 (((cfg0.win 2).blk t).view.emb (ix3 p n d)) = V m c main_arg2 (ix3 (row t p) n d)
  refine congrArg _ (funext fun a => Fin.ext ?_)
  match a with
  | ⟨0, _⟩ => show win0_2.index t (0 : Fin 3) * 128 + 1 * p.val = t.val * 128 + p.val; omega
  | ⟨1, _⟩ => show win0_2.index t (1 : Fin 3) * 50 + 1 * n.val = n.val; omega
  | ⟨2, _⟩ => show win0_2.index t (2 : Fin 3) * 128 + 1 * d.val = d.val; omega

theorem blkB_apply (c : Dev nD) (t : Fin cfg0.N) (p : Fin 128) (n : Fin 50) (d : Fin 128) :
    blkB m c t (ix3 p n d) = arrB m c (ix3 (row t p) n d) := by
  obtain ⟨-, -, -, -, -, -, -, e0, e1, e2, -⟩ := idx_facts t
  show V m c main_arg3 (((cfg0.win 3).blk t).view.emb (ix3 p n d)) = V m c main_arg3 (ix3 (row t p) n d)
  refine congrArg _ (funext fun a => Fin.ext ?_)
  match a with
  | ⟨0, _⟩ => show win0_3.index t (0 : Fin 3) * 128 + 1 * p.val = t.val * 128 + p.val; omega
  | ⟨1, _⟩ => show win0_3.index t (1 : Fin 3) * 50 + 1 * n.val = n.val; omega
  | ⟨2, _⟩ => show win0_3.index t (2 : Fin 3) * 128 + 1 * d.val = d.val; omega

/-- What point `t` leaves in the output block: at (p, ·), entry (128·t + p, 0) of `G` of the arrays. -/
theorem block_eq (c : Dev nD) (t : Fin cfg0.N) (p : Fin 128) (q : Fin 1) :
    out0_4 (blkR m c t) (blkC m c t) (blkA m c t) (blkB m c t) (ix2 p q)
      = G (arrR m c) (arrC m c) (arrA m c) (arrB m c) (ix2 (row t p) (0 : Fin 1)) := by
  rw [out_eq_rowSum]
  simp only [blkR_apply, blkC_apply, blkA_apply, blkB_apply]
  rfl

/-- WHAT POINT `t` WRITES BACK is block `t` of `G` of the argument arrays. -/
theorem flushed_eq (c : Dev nD) (t : Fin cfg0.N) :
    (dats m 0 c).flushed 4 t
      = ((cfg0.win 4).blk t).view.read (Elt Ideal) (G (arrR m c) (arrC m c) (arrA m c) (arrB m c)) := by
  rw [flushed4]
  obtain ⟨-, -, -, -, -, -, -, -, -, -, e0, e1⟩ := idx_facts t
  funext j
  have hj0 : (j 0).val < 128 := (j 0).isLt
  have hj1 : (j 1).val < 1 := (j 1).isLt
  show out0_4 (blkR m c t) (blkC m c t) (blkA m c t) (blkB m c t) j
    = G (arrR m c) (arrC m c) (arrA m c) (arrB m c) (((cfg0.win 4).blk t).view.emb j)
  refine ((congrArg (out0_4 (blkR m c t) (blkC m c t) (blkA m c t) (blkB m c t)) (eq_ix2 (n0 := 128) (n1 := 1) j)).trans
    (block_eq m c t (j 0) (j 1))).trans ?_
  refine congrArg _ (funext fun a => Fin.ext ?_)
  match a with
  | ⟨0, _⟩ => show t.val * 128 + (j 0).val = win0_4.index t (0 : Fin 2) * 128 + 1 * (j 0).val; omega
  | ⟨1, _⟩ => show 0 = win0_4.index t (1 : Fin 2) * 1 + 1 * (j 1).val; omega

/-- An index of the result array is in point `t`'s block iff each coordinate is in the block's range on its axis. -/
theorem mem_blk (t : Fin cfg0.N) (i : S16384x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v0).slice (win0_4.rect t)).set ↔ _
  rw [View.set_slice_whole, Rect.mem_set_unit]
  exact Iff.rfl

/-- Every index of the result array is in the block of the point that holds its batch row. -/
theorem cover (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  let t : Fin cfg0.N := ⟨(i 0).val / 128, lt_of_lt_of_eq (by omega : (i 0).val / 128 < 128) N_0.symm⟩
  obtain ⟨-, -, -, -, -, -, -, -, -, -, e0, e1⟩ := idx_facts t
  have ht : t.val = (i 0).val / 128 := rfl
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 1 ≤ (i 1).val ∧ (i 1).val < win0_4.index t (1 : Fin 2) * 1 + 1; omega

/-- THE ARRAY after the run is `G` of the argument arrays. -/
theorem final (c : Dev nD) :
    (dats m 0 c).arrAt 4 cfg0.N = G (arrR m c) (arrC m c) (arrA m c) (arrB m c) :=
  (dats m 0 c).arrAt_eq_of_cover 4 (G (arrR m c) (arrC m c) (arrA m c) (arrB m c)) (fun t _ => flushed_eq m c t) (cover)

/-- The kernel's run: every weakly fair execution ends with the result array at `G` of the arguments as launched, and
    the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Array

end
-- ==== Proof.RefRow.lean ====
/-
  The reference's result, index by index.

  The reference clips the two integer arrays to {0, 1} and reads them as numbers, forms every pair's inner product over
  the lanes (a batched contraction), multiplies entry (i, n, m) by the first weight at (i, n) and the second at (i, m),
  and sums over both sequence axes from zero. So entry (i, 0) of its result is the masked pair sum of row `i`.
-/
import proofs.«113789_j77833397338356_1_alg».proof.Proof.Gen.ReferenceIdeal.Read
import proofs.«113789_j77833397338356_1_alg».proof.Proof.Spec

noncomputable section

namespace Cert.ReferenceIdeal.Row

open Cert.ReferenceIdeal Cert.ReferenceIdeal.Gen Cert.ReferenceIdeal.Read Idealize.ShloMosaic Idealize.ShloMosaic.TcCoe
open Idealize.ShloMosaic.ValueIdx Cert.Spec

/-- The first weight is spread along the second sequence axis: at (i, n, m) it is read at (i, n). -/
theorem idx_first (i : Fin 16384) (n m : Fin 50) : idx_main_v5 (idx_main_v6 (ix3 i n m)) = ix2 i n := by
  funext a
  match a with
  | ⟨0, _⟩ => rfl
  | ⟨1, _⟩ => rfl

/-- The second weight is spread along the first sequence axis: at (i, n, m) it is read at (i, m). -/
theorem idx_second (i : Fin 16384) (n m : Fin 50) : idx_main_v8 (idx_main_v9 (ix3 i n m)) = ix2 i m := by
  funext a
  match a with
  | ⟨0, _⟩ => rfl
  | ⟨1, _⟩ => rfl

/-- The contraction at (i, n, m) reads the left operand at (i, n, k) -/
theorem idx_left (i : Fin 16384) (n m : Fin 50) (k : Fin 128) : lidx_main_v4 (ix3 i n m) k = ix3 i n k := by
  funext a
  match a with
  | ⟨0, _⟩ => rfl
  | ⟨1, _⟩ => rfl
  | ⟨2, _⟩ => rfl

/-- and the right operand at (i, m, k). -/
theorem idx_right (i : Fin 16384) (n m : Fin 50) (k : Fin 128) : ridx_main_v4 (ix3 i n m) k = ix3 i m k := by
  funext a
  match a with
  | ⟨0, _⟩ => rfl
  | ⟨1, _⟩ => rfl
  | ⟨2, _⟩ => rfl

/-- The clipped first array read as numbers, at an index, is the weight of the word there. -/
theorem first_weight (x0 : S16384x50.Idx → BitVec 32) (j : S16384x50.Idx) :
    val_main_v1 (F := Ideal) x0 j = weight (x0 j) := by
  rw [val_main_v1_apply, val_main_v0_apply, val_main_call0_v4_apply, val_main_call0_v3_apply, val_main_c_0_apply,
    val_main_call0_v2_apply, val_main_call0_v1_apply, val_main_call0_v0_apply, val_main_c_apply]
  rfl

/-- The same for the second array. -/
theorem second_weight (x1 : S16384x50.Idx → BitVec 32) (j : S16384x50.Idx) :
    val_main_v3 (F := Ideal) x1 j = weight (x1 j) := by
  rw [val_main_v3_apply, val_main_v2_apply, val_main_call1_v4_apply, val_main_call1_v3_apply, val_main_c_2_apply,
    val_main_call1_v2_apply, val_main_call1_v1_apply, val_main_call1_v0_apply, val_main_c_1_apply]
  rfl

/-- The masked products at (i, n, m): the pair's inner product times both weights. -/
theorem masked_apply (x0 x1 : S16384x50.Idx → BitVec 32) (x2 x3 : S16384x50x128.Idx → EReal) (i : Fin 16384) (n m : Fin 50) :
    val_main_v10 (F := Ideal) x0 x1 x2 x3 (ix3 i n m)
      = (∑ d : Fin 128, x2 (ix3 i n d) * x3 (ix3 i m d)) * weight (x0 (ix2 i n)) * weight (x1 (ix2 i m)) := by
  rw [val_main_v10_apply, val_main_v7_apply, val_main_v4_apply, val_main_v6_apply, val_main_v5_apply, first_weight,
    val_main_v9_apply, val_main_v8_apply, second_weight, idx_first, idx_second]
  simp only [idx_left, idx_right]
  rfl

/-- THE REFERENCE: entry (i, 0) of its result is the masked pair sum of row `i` of the arguments. -/
theorem result_apply (x0 x1 : S16384x50.Idx → BitVec 32) (x2 x3 : S16384x50x128.Idx → EReal) (i : S16384x1.Idx) :
    val_main_v12 (F := Ideal) x0 x1 x2 x3 i
      = pairSum (fun n => x0 (ix2 (i 0) n)) (fun m => x1 (ix2 (i 0) m)) (fun n d => x2 (ix3 (i 0) n d)) (fun m d => x3 (ix3 (i 0) m d)) := by
  rw [val_main_v12_apply]
  show Ideal.hostReduceAdd reducesTo_S16384x50x50_S16384_d1_2 (val_main_v10 (F := Ideal) x0 x1 x2 x3)
    (Ideal.ofBits .f32 0x00000000#32) (idx_main_v12 i) = _
  rw [Cert.PairSum.hostReduceAdd_last_two, Ideal.ofBits_zero_f32, zero_add]
  unfold pairSum
  refine Finset.sum_congr rfl fun n _ => Finset.sum_congr rfl fun m _ => ?_
  exact masked_apply x0 x1 x2 x3 (i 0) n m

end Cert.ReferenceIdeal.Row

end
-- ==== Proof.FiniteInputs.lean ====
/-
  From the precondition to real entries.

  The precondition is the conjunction of two tests, one per float argument: every entry's absolute value compares below
  the pattern of +∞. A conjunction that is 1 has both parts 1; an "all" that is 1 has every element 1; and an extended
  real `x` with max x (-x) < ⊤ is neither ⊤ nor ⊥, hence a real number.
-/
import proofs.«113789_j77833397338356_1_alg».proof.Pre_finite_inputs
import proofs.«113789_j77833397338356_1_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs Cert.Pre_finite_inputs.Gen

/-- A rank-zero array has one index. -/
instance : Subsingleton S_.Idx := ⟨fun a b => funext fun d => d.elim0⟩

/-- The single-precision pattern of +∞ denotes ⊤. -/
theorem ofBits_inf : Ideal.ofBits .f32 0x7F800000#32 = ⊤ := by simp [Ideal.ofBits, Ideal.ieee]

/-- An extended real whose absolute value is below ⊤ is a real number. -/
theorem real_of_abs_lt_top (x : EReal) (h : Ideal.cmp .olt (max x (-x)) ⊤ = 1#1) : ∃ y : ℝ, x = y := by
  induction x using EReal.rec with
  | bot => simp [Ideal.cmp] at h
  | top => simp [Ideal.cmp] at h
  | coe r => exact ⟨r, rfl⟩

/-- Under the precondition every entry of both float arguments is a real number. -/
theorem real_of_pre (x0 x1 : IVec S16384x50 32) (x2 x3 : FVec Ideal S16384x50x128 .f32)
    (h : fn (F := Ideal) x0 x1 x2 x3 = fun _ => 1#1) :
    (∀ i, ∃ y : ℝ, x2 i = y) ∧ (∀ i, ∃ y : ℝ, x3 i = y) := by
  have h0 := congrFun h ValueIdx.ix0
  dsimp only [fn] at h0
  obtain ⟨h2, h3⟩ := IntOp.andi_eq_one.1 h0
  constructor
  · intro i
    have e := Host.reduce_andi_all _ _ _ _ _ h2 i
    have e' : Ideal.cmp .olt (max (x2 i) (-(x2 i))) (Ideal.ofBits .f32 0x7F800000#32) = 1#1 := e
    rw [ofBits_inf] at e'
    exact real_of_abs_lt_top _ e'
  · intro i
    have e := Host.reduce_andi_all _ _ _ _ _ h3 i
    have e' : Ideal.cmp .olt (max (x3 i) (-(x3 i))) (Ideal.ofBits .f32 0x7F800000#32) = 1#1 := e
    rw [ofBits_inf] at e'
    exact real_of_abs_lt_top _ e'

end Cert.FiniteInputs

end
-- ==== Proof.lean ====
/-
  The kernel computes, per batch row, the inner product over the lanes of two masked sums over the sequence axis; the
  reference computes the masked sum, over all pairs of sequence positions, of the pairs' inner products. With the masks
  (integer words clipped to {0, 1}) and all float entries real numbers the two are one number: a product of two finite
  sums is the double sum of the products, and finite sums exchange.

  The kernel's result array as a function of its arguments is `Cert.Spec.G` (Proof/KernelArray.lean, over the block
  lemma of Proof/KernelRow.lean); the reference's result at an index is the pair sum (Proof/RefRow.lean); the law joining
  them is Proof/Spec.lean's, from Proof/LibPairSum.lean; that the float entries are real numbers under the precondition
  is Proof/FiniteInputs.lean. Nothing was rewritten in the idealization, so that conjunct is trivial.
-/
import proofs.«113789_j77833397338356_1_alg».proof.Defs
import proofs.«113789_j77833397338356_1_alg».proof.Proof.Gen.Kernel
import proofs.«113789_j77833397338356_1_alg».proof.Proof.Gen.Kernel.Skeleton
import proofs.«113789_j77833397338356_1_alg».proof.Proof.Gen.Kernel.Launch
import proofs.«113789_j77833397338356_1_alg».proof.Proof.Gen.Kernel.Points
import proofs.«113789_j77833397338356_1_alg».proof.Proof.Gen.Kernel.Frame
import proofs.«113789_j77833397338356_1_alg».proof.Proof.Gen.KernelIdeal
import proofs.«113789_j77833397338356_1_alg».proof.Proof.Gen.KernelIdeal.Skeleton
import proofs.«113789_j77833397338356_1_alg».proof.Proof.Gen.KernelIdeal.Launch
import proofs.«113789_j77833397338356_1_alg».proof.Proof.Gen.KernelIdeal.Points
import proofs.«113789_j77833397338356_1_alg».proof.Proof.Gen.KernelIdeal.Frame
import proofs.«113789_j77833397338356_1_alg».proof.Proof.Gen.ReferenceIdeal
import proofs.«113789_j77833397338356_1_alg».proof.Proof.Gen.Pre_finite_inputs
import proofs.«113789_j77833397338356_1_alg».proof.Proof.Gen.KernelIdeal.Value
import proofs.«113789_j77833397338356_1_alg».proof.Proof.Gen.ReferenceIdeal.Run
import proofs.«113789_j77833397338356_1_alg».proof.Proof.Gen.ReferenceIdeal.Read
import proofs.«113789_j77833397338356_1_alg».proof.Proof.KernelArray
import proofs.«113789_j77833397338356_1_alg».proof.Proof.RefRow
import proofs.«113789_j77833397338356_1_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end, from arguments that agree, with the result at `G` of the arguments: the kernel's by its blocks, the
    reference's because its pair sum is the row sum on real entries, which the precondition gives. -/
theorem algebraic : Cert.algebraic_KernelIdeal_ReferenceIdeal := by
  intro m ρ m' ρ' hpre hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2.1, (hagree c).2.2.2]
  obtain ⟨h2, h3⟩ := Cert.FiniteInputs.real_of_pre _ _ _ _ (hpre c)
  funext i
  rw [Cert.ReferenceIdeal.Row.result_apply]
  exact (Cert.Spec.rowSum_eq_pairSum _ _ _ _ (fun n d => h2 _) (fun k d => h3 _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
